-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel

variable [Facts]

def fn {F : FTy → Type} [FloatOps F] (main_arg0 : FVec F S4096x1024 .f32) (main_arg1 : FVec F S4096x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  main_v8
-- ==== Kernel.lean ====
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4x1x1 : Shape := ⟨3, ![4, 1, 1]⟩
abbrev S1024x1024 : Shape := ⟨2, ![1024, 1024]⟩
abbrev S512x1024 : Shape := ⟨2, ![512, 1024]⟩
abbrev S1024x1 : Shape := ⟨2, ![1024, 1]⟩
abbrev S1x512 : Shape := ⟨2, ![1, 512]⟩
abbrev S1x1x1 : Shape := ⟨3, ![1, 1, 1]⟩
abbrev S1x1 : Shape := ⟨2, ![1, 1]⟩
abbrev S1024x512 : Shape := ⟨2, ![1024, 512]⟩
abbrev S1024 : Shape := ⟨1, ![1024]⟩
abbrev S1 : Shape := ⟨1, ![1]⟩

abbrev nBuf : Space → Nat
  | .hbm => 37
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S4096x1, .f32⟩
  | .hbm, ⟨30, _⟩ => ⟨S1x4096, .f32⟩
  | .hbm, ⟨31, _⟩ => ⟨S4x1x1, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512x1024, .f32⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1x1x1, .f32⟩
  | .local _ .vmem, ⟨9, _⟩ => ⟨S1x1x1, .f32⟩
  | .local _ .vmem, ⟨10, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_cst_6 : Ref sig .tc := ⟨.hbm, 34, rfl⟩
abbrev main_v19 : Ref sig .tc := ⟨.hbm, 35, rfl⟩
abbrev main_v20 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v43 : BitVec 1 := Scalar.cmpi .eq arg1 c7_i32
  let v44 : BitVec 32 := Scalar.extui v43
  let c0_i32_17 : BitVec 32 := 0#32
  let v45 : BitVec 1 := Scalar.cmpi .ne v44 c0_i32_17
  v45

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S4096x1024_S4096_d1 : S4096x1024.ReducesTo [1] S4096
  h_S_ : 0 < S_.numel
  bcast_S_S4096 : S_.BroadcastsInDim S4096 (![] : Fin 0 → Fin S4096.rank)
  reducesTo_S4096_S_d0 : S4096.ReducesTo [0] S_
  shapeCasts_S4096_S4096x1 : S4096.ShapeCasts S4096x1
  shapeCasts_S4096_S1x4096 : S4096.ShapeCasts S1x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  iota_S1024x1_d0_w32 : S1024x1.Iotas .tc 32 [0]
  iota_S1x512_d1_w32 : S1x512.Iotas .tc 32 [1]
  reduces_S1024x512_S1024 : S1024x512.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S4x1x1_S_d0_1_2 : S4x1x1.ReducesTo [0, 1, 2] S_
  dot_S1024x1024_S512x1024_S1024x512_1_1_0_0_n_n_wf : DotDims.WF S1024x1024 S512x1024 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x1024.size a
  hwx0_0 : ∀ i : grid0.Coords, EltTy.bits .f32 = 32 ∨ (Rect.block (s := S4096x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x4096.size a
  hwx0_3 : ∀ i : grid0.Coords, EltTy.bits .f32 = 32 ∨ (Rect.block (s := S1x4096) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S4x1x1.size a
  hwx0_4 : ∀ i : grid0.Coords, EltTy.bits .f32 = 32 ∨ (Rect.block (s := S4x1x1) S1x1x1.size (cc0_transform_4 i) (hinb0_4 i)).WholeWords (EltTy.packing .f32)

variable [Facts₀]

def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x1x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4096x1024 : Shape := ⟨2, ![4096, 1024]⟩
abbrev S_ : Shape := ⟨0, ![]⟩
abbrev S4096 : Shape := ⟨1, ![4096]⟩
abbrev S1024x4096 : Shape := ⟨2, ![1024, 4096]⟩
abbrev S4096x4096 : Shape := ⟨2, ![4096, 4096]⟩
abbrev S4096x1 : Shape := ⟨2, ![4096, 1]⟩
abbrev S1x4096 : Shape := ⟨2, ![1, 4096]⟩

abbrev nBuf : Space → Nat
  | .hbm => 60
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S1024x4096, .f32⟩
  | .hbm, ⟨22, _⟩ => ⟨S4096x4096, .f32⟩
  | .hbm, ⟨23, _⟩ => ⟨S4096x1, .f32⟩
  | .hbm, ⟨24, _⟩ => ⟨S1x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S4096x4096, .i32⟩
  | .hbm, ⟨30, _⟩ => ⟨S4096x4096, .i32⟩
  | .hbm, ⟨31, _⟩ => ⟨S_, .i32⟩
  | .hbm, ⟨32, _⟩ => ⟨S4096x4096, .i32⟩
  | .hbm, ⟨33, _⟩ => ⟨S4096x4096, .i32⟩
  | .hbm, ⟨34, _⟩ => ⟨S4096x4096, .i1⟩
  | .hbm, ⟨35, _⟩ => ⟨S4096x4096, .f32⟩
  | .hbm, ⟨36, _⟩ => ⟨S_, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S_, .f32⟩
  | .hbm, ⟨41, _⟩ => ⟨S4096, .f32⟩
  | .hbm, ⟨42, _⟩ => ⟨S4096, .f32⟩
  | .hbm, ⟨43, _⟩ => ⟨S4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_call1_v0 : Ref sig .tc := ⟨.hbm, 9, rfl⟩
abbrev main_call1_cst : Ref sig .tc := ⟨.hbm, 10, rfl⟩
abbrev main_call1_v1 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_2 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_8 : Ref sig .tc := ⟨.hbm, 55, rfl⟩
abbrev main_v37 : Ref sig .tc := ⟨.hbm, 56, rfl⟩
abbrev main_cst_9 : Ref sig .tc := ⟨.hbm, 57, rfl⟩
abbrev main_v38 : Ref sig .tc := ⟨.hbm, 58, rfl⟩
abbrev main_v39 : Ref sig .tc := ⟨.hbm, 59, rfl⟩

abbrev nD : Nat := 1
abbrev τ : Topo := Topo.v7x

variable {F : FTy → Type} [FloatOps F]

class Facts₀ : Prop where
  reducesTo_S4096x1024_S4096_d1 : S4096x1024.ReducesTo [1] S4096
  h_S_ : 0 < S_.numel
  bcast_S_S4096 : S_.BroadcastsInDim S4096 (![] : Fin 0 → Fin S4096.rank)
  transposes_S4096x1024_S1024x4096_1_0 : S4096x1024.Transposes [1, 0] S1024x4096
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)
  reducesTo_S4096_S_d0 : S4096.ReducesTo [0] S_
  reducesTo_S4096x4096_S_d0_1 : S4096x4096.ReducesTo [0, 1] S_
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.Pieces.lean ====
/-
  What one grid point leaves behind, whatever the float values are. The body keeps a one-entry running sum
  in a scratch cell: at the first column-tile of a row of tiles it stores zero there, reads it back and
  stores zero plus the tile's sum; at every other point it stores what the point before left plus the
  tile's sum; at the last column-tile it also copies the cell into the output block. Each of these is the
  payload of the one store that covers the cell (or the block), its loads reading whole buffers.
-/
import proofs.«181856_j82892868813397_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

/-- The zero offsets of a whole-buffer access, as a constant function. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A middle point leaves (what it found) + (the tile's sum) in the scratch cell. -/
theorem sout_B (c : Dev nD) (i : grid0.Coords) (a2 : Memref sig .tc .vmem S1024x1024 .f32) (h2 : a2.IsWhole) (a3 : Memref sig .tc .vmem S512x1024 .f32) (h3 : a3.IsWhole) (a4 : Memref sig .tc .vmem S1024x1 .f32) (h4 : a4.IsWhole) (a5 : Memref sig .tc .vmem S1x512 .f32) (h5 : a5.IsWhole) (a6 : Memref sig .tc .vmem S1x1x1 .f32) (h6 : a6.IsWhole) (a7 : Memref sig .tc .vmem S1x1 .f32) (h7 : a7.IsWhole) (hc0 : ¬cond0_0 i) (hc1 : ¬cond0_1 i) (x0 : Vec F S1024x1024 .f32) (x1 : Vec F S512x1024 .f32) (x2 : Vec F S1024x1 .f32) (x3 : Vec F S1x512 .f32) (xs0 : Vec F S1x1 .f32) :
    sout0_B_0 c i a2 h2 a3 h3 a4 h4 a5 h5 a6 h6 a7 h7 hc0 hc1 x0 x1 x2 x3 xs0 = k0_pay1 (k0_pay4 i x0 x1 x2 x3) xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero (S := S1x1) hz2]
  simp only [View.readAt_eq_ld, h2.read_unread, h3.read_unread, h4.read_unread, h5.read_unread, h7.read_unread,
    View.ld_unit_zero (S := S1024x1024) hz2, View.ld_unit_zero (S := S512x1024) hz2, View.ld_unit_zero (S := S1024x1) hz2,
    View.ld_unit_zero (S := S1x512) hz2, View.ld_unit_zero (S := S1x1) hz2]

/-- A first point leaves (the zero it has just stored) + (the tile's sum). -/
theorem sout_A (c : Dev nD) (i : grid0.Coords) (a2 : Memref sig .tc .vmem S1024x1024 .f32) (h2 : a2.IsWhole) (a3 : Memref sig .tc .vmem S512x1024 .f32) (h3 : a3.IsWhole) (a4 : Memref sig .tc .vmem S1024x1 .f32) (h4 : a4.IsWhole) (a5 : Memref sig .tc .vmem S1x512 .f32) (h5 : a5.IsWhole) (a6 : Memref sig .tc .vmem S1x1x1 .f32) (h6 : a6.IsWhole) (a7 : Memref sig .tc .vmem S1x1 .f32) (h7 : a7.IsWhole) (hc0 : cond0_0 i) (hc1 : ¬cond0_1 i) (x0 : Vec F S1024x1024 .f32) (x1 : Vec F S512x1024 .f32) (x2 : Vec F S1024x1 .f32) (x3 : Vec F S1x512 .f32) :
    sout0_A_0 c i a2 h2 a3 h3 a4 h4 a5 h5 a6 h6 a7 h7 hc0 hc1 x0 x1 x2 x3 = k0_pay1 (k0_pay4 i x0 x1 x2 x3) (k0_pay3 (F := F)) := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1x1) hz2]
  simp only [View.readAt_eq_ld, h2.read_unread, h3.read_unread, h4.read_unread, h5.read_unread,
    View.ld_unit_zero (S := S1024x1024) hz2, View.ld_unit_zero (S := S512x1024) hz2, View.ld_unit_zero (S := S1024x1) hz2,
    View.ld_unit_zero (S := S1x512) hz2, View.readCov_unit_zero (S := S1x1) _ hz2]

/-- A last point leaves (what it found) + (the tile's sum) in the scratch cell, -/
theorem sout_C (c : Dev nD) (i : grid0.Coords) (a2 : Memref sig .tc .vmem S1024x1024 .f32) (h2 : a2.IsWhole) (a3 : Memref sig .tc .vmem S512x1024 .f32) (h3 : a3.IsWhole) (a4 : Memref sig .tc .vmem S1024x1 .f32) (h4 : a4.IsWhole) (a5 : Memref sig .tc .vmem S1x512 .f32) (h5 : a5.IsWhole) (a6 : Memref sig .tc .vmem S1x1x1 .f32) (h6 : a6.IsWhole) (a7 : Memref sig .tc .vmem S1x1 .f32) (h7 : a7.IsWhole) (hc0 : ¬cond0_0 i) (hc1 : cond0_1 i) (x0 : Vec F S1024x1024 .f32) (x1 : Vec F S512x1024 .f32) (x2 : Vec F S1024x1 .f32) (x3 : Vec F S1x512 .f32) (xs0 : Vec F S1x1 .f32) :
    sout0_C_0 c i a2 h2 a3 h3 a4 h4 a5 h5 a6 h6 a7 h7 hc0 hc1 x0 x1 x2 x3 xs0 = k0_pay1 (k0_pay4 i x0 x1 x2 x3) xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero (S := S1x1) hz2]
  simp only [View.readAt_eq_ld, h2.read_unread, h3.read_unread, h4.read_unread, h5.read_unread, h7.read_unread,
    View.ld_unit_zero (S := S1024x1024) hz2, View.ld_unit_zero (S := S512x1024) hz2, View.ld_unit_zero (S := S1024x1) hz2,
    View.ld_unit_zero (S := S1x512) hz2, View.ld_unit_zero (S := S1x1) hz2]

/-- and the same value, reshaped, in the output block. -/
theorem out_C (c : Dev nD) (i : grid0.Coords) (a2 : Memref sig .tc .vmem S1024x1024 .f32) (h2 : a2.IsWhole) (a3 : Memref sig .tc .vmem S512x1024 .f32) (h3 : a3.IsWhole) (a4 : Memref sig .tc .vmem S1024x1 .f32) (h4 : a4.IsWhole) (a5 : Memref sig .tc .vmem S1x512 .f32) (h5 : a5.IsWhole) (a6 : Memref sig .tc .vmem S1x1x1 .f32) (h6 : a6.IsWhole) (a7 : Memref sig .tc .vmem S1x1 .f32) (h7 : a7.IsWhole) (hc0 : ¬cond0_0 i) (hc1 : cond0_1 i) (x0 : Vec F S1024x1024 .f32) (x1 : Vec F S512x1024 .f32) (x2 : Vec F S1024x1 .f32) (x3 : Vec F S1x512 .f32) (xs0 : Vec F S1x1 .f32) :
    out0_C_4 c i a2 h2 a3 h3 a4 h4 a5 h5 a6 h6 a7 h7 hc0 hc1 x0 x1 x2 x3 xs0 = k0_pay2 (k0_pay1 (k0_pay4 i x0 x1 x2 x3) xs0) := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero (S := S1x1x1) hz3]
  simp only [View.readAt_eq_ld, h2.read_unread, h3.read_unread, h4.read_unread, h5.read_unread, h7.read_unread,
    View.ld_unit_zero (S := S1024x1024) hz2, View.ld_unit_zero (S := S512x1024) hz2, View.ld_unit_zero (S := S1024x1) hz2,
    View.ld_unit_zero (S := S1x512) hz2, View.ld_unit_zero (S := S1x1) hz2, View.readCov_unit_zero (S := S1x1) _ hz2]

end Cert.KernelIdeal.Pieces
end
-- ==== Proof.Spec.lean ====
/-
  The arithmetic both programs share, over the extended reals.

  Both compute, for every pair (r, c) of a row of the first matrix and a row of the second, the cosine
  similarity s(r, c) = <x_r, y_c> / (|x_r| * |y_c|) (each norm clamped below), put zero on the diagonal,
  and sum max(s - 1/2, 0)^2 over all pairs. The kernel walks the 4096 x 4096 pairs tile by tile
  (4 x 8 tiles of 1024 x 512 pairs) and picks the diagonal with a select; the reference walks them all
  at once and clears the diagonal by multiplying with one minus the identity matrix.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- The words zero, one half and one, as both programs print them. -/
abbrev zeroW : EReal := Ideal.ofBits .f32 0x00000000#32
abbrev halfW : EReal := Ideal.ofBits .f32 0x3F000000#32
abbrev oneW : EReal := Ideal.ofBits .f32 0x3F800000#32

/-- The squared hinge of a similarity: max(s - 1/2, 0) squared. -/
def hinge (s : EReal) : EReal := max (s - halfW) zeroW * max (s - halfW) zeroW

/-- One entry of the hinge-squared similarity matrix, from the inner product d of the two rows, their two
    clamped norms, and whether the entry lies on the diagonal (there the similarity is replaced by zero). -/
def cell (d nI nT : EReal) (diag : Prop) [Decidable diag] : EReal :=
  hinge (if diag then zeroW else Ideal.div d (nI * nT))

/-- The inner product of row r of x with row c of y. -/
def dotRow (x y : (⟨2, ![4096, 1024]⟩ : Shape).Idx → EReal) (r c : Fin 4096) : EReal :=
  ∑ k : Fin 1024, x (ix2 r k) * y (ix2 c k)

/-- Row p of row-tile i, and column q of column-tile j, in the whole matrix. -/
def rowOf (i : Fin 4) (p : Fin 1024) : Fin 4096 := ⟨1024 * i.val + p.val, by omega⟩
def colOf (j : Fin 8) (q : Fin 512) : Fin 4096 := ⟨512 * j.val + q.val, by omega⟩

end Cert.Spec

end
-- ==== Proof.OutArr.lean ====
/-
  The kernel's output array, read at the extended reals. The scratch cell is a running sum along each row
  of tiles: reset to zero plus the first tile's sum, then each later point adds its tile's sum; the last
  column-tile of the row copies the cell into the output array's entry for that row of tiles. So entry i
  of the output array ends at zero plus the eight tile sums of row-of-tiles i.
-/
import proofs.«181856_j82892868813397_1_alg».proof.Proof.Pieces
import proofs.«181856_j82892868813397_1_alg».proof.Proof.Spec
import Idealize.ShloMosaic.Lib.Pipeline.Value
import Idealize.ShloMosaic.Lib.ValueIdx
import Idealize.ShloMosaic.Lib.ValueLayout

noncomputable section

open Idealize.ShloMosaic Idealize.ShloMosaic.TcCoe Idealize.SL.Sem
open Idealize.ShloMosaic.Pipeline (Dat)

namespace Cert.KernelIdeal.NegLoss

open Cert.KernelIdeal Cert.KernelIdeal.Gen Cert.KernelIdeal.Pieces Idealize.ShloMosaic.ValueIdx

variable (m : (ℓ : Loc nD τ sig) → Buf (Elt Ideal) ℓ)

/-- The four input blocks of a grid point, at their literal types. -/
abbrev xblk (c : Dev nD) (t : Fin cfg0.N) : Vec Ideal S1024x1024 .f32 := iblk m c 0 t
abbrev yblk (c : Dev nD) (t : Fin cfg0.N) : Vec Ideal S512x1024 .f32 := iblk m c 1 t
abbrev nIblk (c : Dev nD) (t : Fin cfg0.N) : Vec Ideal S1024x1 .f32 := iblk m c 2 t
abbrev nTblk (c : Dev nD) (t : Fin cfg0.N) : Vec Ideal S1x512 .f32 := iblk m c 3 t

/-- The sum over the tile of grid point t, as the body computes it. -/
def tileAt (c : Dev nD) (t : Fin cfg0.N) : Vec Ideal S1x1 .f32 :=
  k0_pay4 (F := Ideal) (grid0.coords t) (xblk m c t) (yblk m c t) (nIblk m c t) (nTblk m c t)

/-- The same for every natural number (zero past the grid, where it is never used). -/
def tileN (c : Dev nD) (n : ℕ) (i : S1x1.Idx) : EReal := if h : n < cfg0.N then tileAt m c ⟨n, h⟩ i else 0

/-- At the first column-tile of a row of tiles the scratch cell is reset: zero plus the tile's sum. -/
theorem scratch_reset (c : Dev nD) (n : ℕ) (h : n < cfg0.N) (h0 : n % 8 = 0) :
    (outsAt0 m c n h).2 = k0_pay1 (F := Ideal) (tileAt m c ⟨n, h⟩) (k0_pay3 (F := Ideal)) := by
  have h1 : ¬(⟨n, h⟩ : Fin cfg0.N).val % 8 = 7 := by dsimp only; omega
  rw [outsAt0_A m c ⟨n, h⟩ h0 h1]; dsimp only
  exact sout_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
    (ms0_3 ⟨n, h⟩) (hs0_3 ⟨n, h⟩) (ms0_4 ⟨n, h⟩) (hs0_4 ⟨n, h⟩) scM0_0 (Memref.isWhole_whole _) ((hcond0_0 ⟨n, h⟩).mpr h0)
    (fun hh => h1 ((hcond0_1 ⟨n, h⟩).mp hh)) (iblk m c 0 ⟨n, h⟩) (iblk m c 1 ⟨n, h⟩) (iblk m c 2 ⟨n, h⟩) (iblk m c 3 ⟨n, h⟩)

/-- At every other point it steps: what the point before left plus the tile's sum. -/
theorem scratch_step (c : Dev nD) (n : ℕ) (h : n + 1 < cfg0.N) (h0 : ¬(n + 1) % 8 = 0) :
    (outsAt0 m c (n + 1) h).2 = k0_pay1 (F := Ideal) (tileAt m c ⟨n + 1, h⟩) (outsAt0 m c n (Nat.lt_of_succ_lt h)).2 := by
  by_cases h1 : (n + 1) % 8 = 7
  · rw [outsAt0_C m c ⟨n + 1, h⟩ h0 h1]; dsimp only
    exact sout_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
      (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh))
      ((hcond0_1 ⟨n + 1, h⟩).mpr h1) (iblk m c 0 ⟨n + 1, h⟩) (iblk m c 1 ⟨n + 1, h⟩) (iblk m c 2 ⟨n + 1, h⟩) (iblk m c 3 ⟨n + 1, h⟩)
      (outsAt0 m c n (Nat.lt_of_succ_lt h)).2
  · rw [outsAt0_B m c ⟨n + 1, h⟩ h0 h1]; dsimp only
    exact sout_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
      (ms0_3 ⟨n + 1, h⟩) (hs0_3 ⟨n + 1, h⟩) (ms0_4 ⟨n + 1, h⟩) (hs0_4 ⟨n + 1, h⟩) scM0_0 (Memref.isWhole_whole _) (fun hh => h0 ((hcond0_0 ⟨n + 1, h⟩).mp hh))
      (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩)
      (outsAt0 m c n (Nat.lt_of_succ_lt h)).2

/-- At a last column-tile the output block is the scratch cell, reshaped. -/
theorem out_last (c : Dev nD) (t : Fin cfg0.N) (h1 : t.val % 8 = 7) :
    (outsAt0 m c t.val t.isLt).1 = k0_pay2 (F := Ideal) (outsAt0 m c t.val t.isLt).2 := by
  have h0 : ¬t.val % 8 = 0 := by omega
  rw [outsAt0_C m c t h0 h1]; dsimp only
  rw [sout_C (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _) (fun hh => h0 ((hcond0_0 t).mp hh))
      ((hcond0_1 t).mpr h1) (iblk m c 0 t) (iblk m c 1 t) (iblk m c 2 t) (iblk m c 3 t)
      (outsAt0 m c (t.val - 1) (Nat.lt_of_le_of_lt (Nat.sub_le _ _) t.isLt)).2]
  exact out_C (F := Ideal) c (grid0.coords t) (ms0_0 t) (hs0_0 t) (ms0_1 t) (hs0_1 t) (ms0_2 t) (hs0_2 t)
      (ms0_3 t) (hs0_3 t) (ms0_4 t) (hs0_4 t) scM0_0 (Memref.isWhole_whole _) (fun hh => h0 ((hcond0_0 t).mp hh))
      ((hcond0_1 t).mpr h1) (iblk m c 0 t) (iblk m c 1 t) (iblk m c 2 t) (iblk m c 3 t)
      (outsAt0 m c (t.val - 1) (Nat.lt_of_le_of_lt (Nat.sub_le _ _) t.isLt)).2

/-- A one-entry vector has one index. -/
theorem idx11_eq (a b : S1x1.Idx) : a = b :=
  Shape.idx_ext₂ (by have ha : (a 0).val < 1 := (a 0).isLt; have hb : (b 0).val < 1 := (b 0).isLt; omega)
    (by have ha : (a 1).val < 1 := (a 1).isLt; have hb : (b 1).val < 1 := (b 1).isLt; omega)

/-- The store into the scratch cell: what was there plus the tile's sum. -/
theorem pay1_apply (v37 : FVec Ideal S1x1 .f32) (v38 : Vec Ideal S1x1 .f32) (i : S1x1.Idx) :
    k0_pay1 (F := Ideal) v37 v38 i = v38 i + v37 i := by
  unfold k0_pay1
  rw [shapeCast_self]
  rfl

/-- The reset value: the zero word. -/
theorem pay3_apply (i : S1x1.Idx) : k0_pay3 (F := Ideal) i = Cert.Spec.zeroW := by
  unfold k0_pay3
  rw [shapeCast_self]
  rfl

/-- The copy into the output block: the scratch cell's one entry. -/
theorem pay2_apply (v : Vec Ideal S1x1 .f32) (b : S1x1x1.Idx) (i : S1x1.Idx) : k0_pay2 (F := Ideal) v b = v i := by
  unfold k0_pay2 shapeCast
  exact congrArg v (idx11_eq _ _)

/-- After a last column-tile the scratch cell holds zero plus the eight tile sums of its row of tiles. -/
theorem scratch_last (c : Dev nD) (t : Fin cfg0.N) (h1 : t.val % 8 = 7) (i : S1x1.Idx) :
    (outsAt0 m c t.val t.isLt).2 i
      = Cert.Spec.zeroW + ∑ s ∈ Finset.range 8, tileN m c (8 * (t.val / 8) + s) i := by
  have h' : 8 * (t.val / 8) + t.val % 8 < cfg0.N := by rw [Nat.div_add_mod]; exact t.isLt
  refine (congrFun (Pipeline.eq_accAt_of_mod (fun n h => (outsAt0 m c n h).2) 8
    (fun n h => k0_pay1 (F := Ideal) (tileAt m c ⟨n, h⟩) (k0_pay3 (F := Ideal)))
    (fun n h acc => k0_pay1 (F := Ideal) (tileAt m c ⟨n, h⟩) acc)
    (fun n h h0 => scratch_reset m c n h h0) (fun n h h0 => scratch_step m c n h h0) (by decide) t.val t.isLt h') i).trans ?_
  rw [Pipeline.accAt_add_apply _ _ (fun _ => Cert.Spec.zeroW) (tileN m c) (8 * (t.val / 8)) 7
    (fun h i => by rw [pay1_apply, pay3_apply]; unfold tileN; rw [dif_pos h])
    (fun n h acc i _ _ => by rw [pay1_apply]; unfold tileN; rw [dif_pos h])
    (t.val % 8) (by omega) h' i, h1]

/-- The output array after the run: entry i is zero plus the eight tile sums of the i-th row of tiles. -/
def outArr (c : Dev nD) : Buf (Elt Ideal) ((c : Thread nD τ).loc main_v17) :=
  fun b => Cert.Spec.zeroW + ∑ s ∈ Finset.range 8, tileN m c (8 * (b 0).val + s) (ix2 0 0)

/-- The output window's block index at a point: the point's row of tiles, and zero on the two unit axes. -/
theorem idx4 : ∀ t : Fin cfg0.N, win0_4.index t 0 = t.val / 8 ∧ win0_4.index t 1 = 0 ∧ win0_4.index t 2 = 0 :=
  (by decide +kernel : ∀ t : Fin grid0.N, win0_4.index t 0 = t.val / 8 ∧ win0_4.index t 1 = 0 ∧ win0_4.index t 2 = 0)
/-- Its blocks are never cut: one entry on every axis. -/
theorem xs4 : ∀ (t : Fin cfg0.N) (a : Fin 3), win0_4.xsize (grid0.coords t) a = 1 :=
  (by decide +kernel : ∀ (t : Fin grid0.N) (a : Fin 3), win0_4.xsize (grid0.coords t) a = 1)

/-- What a last column-tile writes back is the array's entry of its row of tiles. -/
theorem flushed_eq (c : Dev nD) (t : Fin cfg0.N) (hf : (cfg0.win 4).flush t = true) :
    (dats m 0 c).flushed 4 t = ((cfg0.win 4).blk t).view.read (Elt Ideal) (outArr m c) := by
  have h1 : t.val % 8 = 7 := (flush0_4 t).mp hf
  funext y
  show (cfg0.win 4).cut (grid0.coords t) ((dats m 0 c).after 4 t) y = _
  rw [after0_4, View.read_apply]
  show (outsAt0 m c t.val t.isLt).1 _ = outArr m c (((cfg0.win 4).blk t).view.emb y)
  rw [out_last m c t h1, pay2_apply _ _ (ix2 0 0), scratch_last m c t h1]
  unfold outArr
  have he : ((((cfg0.win 4).blk t).view.emb y) 0).val = t.val / 8 := by
    show win0_4.index t 0 * 1 + 1 * (y 0).val = _
    have hy : (y 0).val < win0_4.xsize (grid0.coords t) 0 := (y 0).isLt
    rw [xs4 t 0] at hy
    rw [(idx4 t).1]; omega
  rw [he]

/-- Every entry of the output array is written back by the last column-tile of its row of tiles. -/
theorem final_out (c : Dev nD) : (dats m 0 c).arrAt 4 cfg0.N = outArr m c :=
  (dats m 0 c).arrAt_eq_of_cover 4 (outArr m c) (flushed_eq m c) fun i => by
    have hi0 : (i 0).val < 4 := (i 0).isLt
    have hi1 : (i 1).val < 1 := (i 1).isLt
    have hi2 : (i 2).val < 1 := (i 2).isLt
    have hN : cfg0.N = 32 := N_0
    have ht : 8 * (i 0).val + 7 < cfg0.N := by omega
    refine ⟨⟨8 * (i 0).val + 7, ht⟩, (flush0_4 _).mpr (by dsimp only; omega), ?_⟩
    show i ∈ ((View.whole main_v17).slice (win0_4.rect ⟨8 * (i 0).val + 7, ht⟩)).set
    rw [View.set_slice_whole, Rect.mem_set_unit]
    intro a
    match a with
    | ⟨0, _⟩ =>
      show win0_4.index _ 0 * 1 ≤ (i 0).val ∧ (i 0).val < win0_4.index _ 0 * 1 + win0_4.xsize _ 0
      rw [(idx4 _).1, xs4 _ 0]; dsimp only; omega
    | ⟨1, _⟩ =>
      show win0_4.index _ 1 * 1 ≤ (i 1).val ∧ (i 1).val < win0_4.index _ 1 * 1 + win0_4.xsize _ 1
      rw [(idx4 _).2.1, xs4 _ 1]; omega
    | ⟨2, _⟩ =>
      show win0_4.index _ 2 * 1 ≤ (i 2).val ∧ (i 2).val < win0_4.index _ 2 * 1 + win0_4.xsize _ 2
      rw [(idx4 _).2.2, xs4 _ 2]; omega

end Cert.KernelIdeal.NegLoss
end
-- ==== Proof.Blocks.lean ====
/-
  What the region finds in its windows. The two argument arrays reach it untouched; the host lines before
  it leave the clamped row norms of x as a column and those of y as a row, and the mean of the squared
  (1 - cosine) of the matching pairs, by the very operations the reference applies. At grid point t the
  kernel sees rows 1024 (t / 8) + p of x with their norms and rows 512 (t % 8) + q of y with theirs.
-/
import proofs.«181856_j82892868813397_1_alg».proof.Proof.OutArr
import proofs.«181856_j82892868813397_1_alg».proof.Proof.Gen.ReferenceIdeal.Read
import Idealize.ShloMosaic.Lib.StableHlo.Run

noncomputable section

open Idealize.ShloMosaic Idealize.ShloMosaic.TcCoe Idealize.SL.Sem
open Idealize.ShloMosaic.Pipeline (Dat)

namespace Cert.KernelIdeal.NegLoss

open Cert.KernelIdeal Cert.KernelIdeal.Gen Idealize.ShloMosaic.ValueIdx

variable (m : (ℓ : Loc nD τ sig) → Buf (Elt Ideal) ℓ)

/-- The two argument arrays, at their literal type. -/
abbrev X (c : Dev nD) : S4096x1024.Idx → EReal := m ((c : Thread nD τ).loc main_arg0)
abbrev Y (c : Dev nD) : S4096x1024.Idx → EReal := m ((c : Thread nD τ).loc main_arg1)

/-- The clamped norms of the rows of x, as the host lines before the region leave them: a column. -/
theorem v15_eq (c : Dev nD) : (V m c main_v15 : S4096x1.Idx → EReal)
    = shapeCast S4096x1 (Cert.ReferenceIdeal.Read.val_main_v2 (F := Ideal) (X m c)) shapeCasts_S4096_S4096x1 := by
  dsimp only [Gen.V, Gen.V0]
  simp only [Gen.hostOps0, Gen.hostOps0_1, Gen.hostOps0_2, Gen.hostOps0_3, List.flatten_cons, List.flatten_nil, List.append_nil, List.cons_append,
    List.nil_append]
  after_results
  rfl

/-- The clamped norms of the rows of y: a row. -/
theorem v16_eq (c : Dev nD) : (V m c main_v16 : S1x4096.Idx → EReal)
    = shapeCast S1x4096 (Cert.ReferenceIdeal.Read.val_main_v5 (F := Ideal) (Y m c)) shapeCasts_S4096_S1x4096 := by
  dsimp only [Gen.V, Gen.V0]
  simp only [Gen.hostOps0, Gen.hostOps0_1, Gen.hostOps0_2, Gen.hostOps0_3, List.flatten_cons, List.flatten_nil, List.append_nil, List.cons_append,
    List.nil_append]
  after_results
  rfl

set_option maxHeartbeats 4000000 in
/-- The mean over the rows of (1 - cosine of the matching pair) squared: the same host lines as the reference's. -/
theorem v14_eq (c : Dev nD) : (V m c main_v14 : S_.Idx → EReal)
    = Cert.ReferenceIdeal.Read.val_main_v31 (F := Ideal) (X m c) (Y m c) := by
  dsimp only [Gen.V, Gen.V0]
  simp only [Gen.hostOps0, Gen.hostOps0_1, Gen.hostOps0_2, Gen.hostOps0_3, List.flatten_cons, List.flatten_nil, List.append_nil, List.cons_append,
    List.nil_append]
  after_results
  unfold Cert.ReferenceIdeal.Read.val_main_v31 Cert.ReferenceIdeal.Read.val_main_v30 Cert.ReferenceIdeal.Read.val_main_v29
    Cert.ReferenceIdeal.Read.val_main_v28 Cert.ReferenceIdeal.Read.val_main_v27 Cert.ReferenceIdeal.Read.val_main_v9
    Cert.ReferenceIdeal.Read.val_main_v8 Cert.ReferenceIdeal.Read.val_main_v7 Cert.ReferenceIdeal.Read.val_main_v6
    Cert.ReferenceIdeal.Read.val_main_v5 Cert.ReferenceIdeal.Read.val_main_v4 Cert.ReferenceIdeal.Read.val_main_v3
    Cert.ReferenceIdeal.Read.val_main_v2 Cert.ReferenceIdeal.Read.val_main_v1 Cert.ReferenceIdeal.Read.val_main_v0
    Cert.ReferenceIdeal.Read.val_main_call0_v1 Cert.ReferenceIdeal.Read.val_main_call0_v0 Cert.ReferenceIdeal.Read.val_main_call1_v1
    Cert.ReferenceIdeal.Read.val_main_call1_v0 Cert.ReferenceIdeal.Read.val_main_cst Cert.ReferenceIdeal.Read.val_main_cst_0
    Cert.ReferenceIdeal.Read.val_main_cst_1 Cert.ReferenceIdeal.Read.val_main_cst_3 Cert.ReferenceIdeal.Read.val_main_cst_4
    Cert.ReferenceIdeal.Read.val_main_cst_5 Cert.ReferenceIdeal.Read.val_main_call0_cst Cert.ReferenceIdeal.Read.val_main_call1_cst
  rfl

/-- A point's coordinates: its row of tiles and its column of tiles. -/
theorem coords_t : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- The input windows' block indices at a point. -/
theorem idx_in : ∀ t : Fin cfg0.N, (win0_0.index t 0 = t.val / 8 ∧ win0_0.index t 1 = 0) ∧ (win0_1.index t 0 = t.val % 8 ∧ win0_1.index t 1 = 0)
    ∧ (win0_2.index t 0 = t.val / 8 ∧ win0_2.index t 1 = 0) ∧ (win0_3.index t 0 = 0 ∧ win0_3.index t 1 = t.val % 8) :=
  (by decide +kernel : ∀ t : Fin grid0.N, (win0_0.index t 0 = t.val / 8 ∧ win0_0.index t 1 = 0) ∧ (win0_1.index t 0 = t.val % 8 ∧ win0_1.index t 1 = 0)
    ∧ (win0_2.index t 0 = t.val / 8 ∧ win0_2.index t 1 = 0) ∧ (win0_3.index t 0 = 0 ∧ win0_3.index t 1 = t.val % 8))

/-- The block of x at a point: rows 1024 (t / 8) + p. -/
theorem xblk_apply (c : Dev nD) (t : Fin cfg0.N) (p k : Fin 1024) (r : Fin 4096) (hr : r.val = 1024 * (t.val / 8) + p.val) :
    xblk m c t (ix2 p k) = X m c (ix2 r k) := by
  show ((cfg0.win 0).blk t).view.read (Elt Ideal) (V m c (Pipeline.arrRef spec0 0)) (ix2 p k) = _
  rw [View.read_apply]
  show V m c main_arg0 (((cfg0.win 0).blk t).view.emb (ix2 p k)) = _
  rw [V_main_arg0]
  refine congrArg (X m c) (Shape.idx_ext₂ ?_ ?_)
  · show win0_0.index t 0 * 1024 + 1 * p.val = r.val
    rw [(idx_in t).1.1]; omega
  · show win0_0.index t 1 * 1024 + 1 * k.val = k.val
    rw [(idx_in t).1.2]; omega

/-- The block of y at a point: rows 512 (t % 8) + q. -/
theorem yblk_apply (c : Dev nD) (t : Fin cfg0.N) (q : Fin 512) (k : Fin 1024) (r : Fin 4096) (hr : r.val = 512 * (t.val % 8) + q.val) :
    yblk m c t (ix2 q k) = Y m c (ix2 r k) := by
  show ((cfg0.win 1).blk t).view.read (Elt Ideal) (V m c (Pipeline.arrRef spec0 1)) (ix2 q k) = _
  rw [View.read_apply]
  show V m c main_arg1 (((cfg0.win 1).blk t).view.emb (ix2 q k)) = _
  rw [V_main_arg1]
  refine congrArg (Y m c) (Shape.idx_ext₂ ?_ ?_)
  · show win0_1.index t 0 * 512 + 1 * q.val = r.val
    rw [(idx_in t).2.1.1]; omega
  · show win0_1.index t 1 * 1024 + 1 * k.val = k.val
    rw [(idx_in t).2.1.2]; omega

/-- The block of the first norms at a point: those of rows 1024 (t / 8) + p. -/
theorem nIblk_apply (c : Dev nD) (t : Fin cfg0.N) (p : Fin 1024) (r : Fin 4096) (hr : r.val = 1024 * (t.val / 8) + p.val) :
    nIblk m c t (ix2 p 0) = Cert.ReferenceIdeal.Read.val_main_v2 (F := Ideal) (X m c) (ix1 r) := by
  show ((cfg0.win 2).blk t).view.read (Elt Ideal) (V m c (Pipeline.arrRef spec0 2)) (ix2 p 0) = _
  rw [View.read_apply]
  show (V m c main_v15 : S4096x1.Idx → EReal) (((cfg0.win 2).blk t).view.emb (ix2 p 0)) = _
  rw [v15_eq]
  refine shapeCast_apply _ _ _ (ix1 r) ?_
  rw [Shape.rowMajor_val_one, Shape.rowMajor_val_two]
  show r.val = (win0_2.index t 0 * 1024 + 1 * p.val) * 1 + (win0_2.index t 1 * 1 + 1 * 0)
  rw [(idx_in t).2.2.1.1, (idx_in t).2.2.1.2]; omega

/-- The block of the second norms at a point: those of rows 512 (t % 8) + q. -/
theorem nTblk_apply (c : Dev nD) (t : Fin cfg0.N) (q : Fin 512) (r : Fin 4096) (hr : r.val = 512 * (t.val % 8) + q.val) :
    nTblk m c t (ix2 0 q) = Cert.ReferenceIdeal.Read.val_main_v5 (F := Ideal) (Y m c) (ix1 r) := by
  show ((cfg0.win 3).blk t).view.read (Elt Ideal) (V m c (Pipeline.arrRef spec0 3)) (ix2 0 q) = _
  rw [View.read_apply]
  show (V m c main_v16 : S1x4096.Idx → EReal) (((cfg0.win 3).blk t).view.emb (ix2 0 q)) = _
  rw [v16_eq]
  refine shapeCast_apply _ _ _ (ix1 r) ?_
  rw [Shape.rowMajor_val_one, Shape.rowMajor_val_two]
  show r.val = (win0_3.index t 0 * 1 + 1 * 0) * 4096 + (win0_3.index t 1 * 512 + 1 * q.val)
  rw [(idx_in t).2.2.2.1, (idx_in t).2.2.2.2]; omega

end Cert.KernelIdeal.NegLoss
end
-- ==== Proof.TileReads.lean ====
/-
  The operations of the kernel's body, each read at one index: the block product at a pair (p, q) is the inner
  product of row p of the first block with row q of the second; a column [a, 1] or a row [1, b] broadcast to
  [a, b] reads the column at p, the row at q; the 32-bit row number 1024 i + p and column number 512 j + q of a
  pair are equal as words exactly when they are equal as naturals (i < 4, j < 8: nothing wraps); the sum along
  the rows and the sum down the one column that is left are sums over q and over p.
-/
import proofs.«181856_j82892868813397_1_alg».proof.Proof.Gen.KernelIdeal
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.Tile

open Cert.KernelIdeal Cert.KernelIdeal.Gen Idealize.ShloMosaic Idealize.ShloMosaic.ValueIdx

/-! ## The block product at a pair -/

/-- The product's left operand index at output index j and contraction index k: (j 0, k). -/
theorem dot_lhs_0 (j : S1024x512.Idx) (q : dot_S1024x1024_S512x1024_S1024x512_1_1_0_0_n_n.contr.Idx) :
    (dot_S1024x1024_S512x1024_S1024x512_1_1_0_0_n_n.lhsIdx j q 0).val = (j 0).val := by
  unfold DotDims.lhsIdx
  rw [dif_neg (show ¬(0 : Fin S1024x1024.rank) ∈ dot_S1024x1024_S512x1024_S1024x512_1_1_0_0_n_n.lhsBatch by decide), dif_pos (show (0 : Fin S1024x1024.rank) ∈ dot_S1024x1024_S512x1024_S1024x512_1_1_0_0_n_n.lhsNonContracting by decide)]
  rfl
theorem dot_lhs_1 (j : S1024x512.Idx) (q : dot_S1024x1024_S512x1024_S1024x512_1_1_0_0_n_n.contr.Idx) :
    (dot_S1024x1024_S512x1024_S1024x512_1_1_0_0_n_n.lhsIdx j q 1).val = (q ⟨0, by decide⟩).val :=
  dot_S1024x1024_S512x1024_S1024x512_1_1_0_0_n_n.lhsIdx_val_of_single rfl j q
/-- The right operand index: (j 1, k), both operands being contracted along their second axis. -/
theorem dot_rhs_0 (j : S1024x512.Idx) (q : dot_S1024x1024_S512x1024_S1024x512_1_1_0_0_n_n.contr.Idx) :
    (dot_S1024x1024_S512x1024_S1024x512_1_1_0_0_n_n.rhsIdx j q 0).val = (j 1).val := by
  unfold DotDims.rhsIdx
  rw [dif_neg (show ¬(0 : Fin S512x1024.rank) ∈ dot_S1024x1024_S512x1024_S1024x512_1_1_0_0_n_n.rhsBatch by decide), dif_pos (show (0 : Fin S512x1024.rank) ∈ dot_S1024x1024_S512x1024_S1024x512_1_1_0_0_n_n.rhsNonContracting by decide)]
  rfl
theorem dot_rhs_1 (j : S1024x512.Idx) (q : dot_S1024x1024_S512x1024_S1024x512_1_1_0_0_n_n.contr.Idx) :
    (dot_S1024x1024_S512x1024_S1024x512_1_1_0_0_n_n.rhsIdx j q 1).val = (q ⟨0, by decide⟩).val :=
  dot_S1024x1024_S512x1024_S1024x512_1_1_0_0_n_n.rhsIdx_val_of_single rfl j q

/-- The block product at (p, q): the inner product of row p of the first block with row q of the second. -/
theorem blockProduct_apply (a : FVec Ideal S1024x1024 .bf16) (b : FVec Ideal S512x1024 .bf16) (p : Fin 1024) (q : Fin 512) :
    matmul dot_S1024x1024_S512x1024_S1024x512_1_1_0_0_n_n none a b (constant (F := Ideal) S1024x512 .f32 0x00000000#32) (ix2 p q)
      = ∑ k : Fin 1024, a (ix2 p k) * b (ix2 q k) := by
  refine (Ideal.matmul_constant_zero_apply dot_S1024x1024_S512x1024_S1024x512_1_1_0_0_n_n none a b (ix2 p q)).trans ?_
  rw [← Equiv.sum_comp (ValueIdx.contrEquiv1 dot_S1024x1024_S512x1024_S1024x512_1_1_0_0_n_n 1024 rfl rfl).symm]
  refine Finset.sum_congr rfl fun k _ => ?_
  have hk := ValueIdx.contrEquiv1_symm_val dot_S1024x1024_S512x1024_S1024x512_1_1_0_0_n_n 1024 rfl rfl k
  have el : dot_S1024x1024_S512x1024_S1024x512_1_1_0_0_n_n.lhsIdx (ix2 p q) ((ValueIdx.contrEquiv1 dot_S1024x1024_S512x1024_S1024x512_1_1_0_0_n_n 1024 rfl rfl).symm k) = ix2 p k := funext fun x => Fin.ext (by
    match x with
    | ⟨0, _⟩ => exact dot_lhs_0 _ _
    | ⟨1, _⟩ => exact (dot_lhs_1 _ _).trans hk)
  have er : dot_S1024x1024_S512x1024_S1024x512_1_1_0_0_n_n.rhsIdx (ix2 p q) ((ValueIdx.contrEquiv1 dot_S1024x1024_S512x1024_S1024x512_1_1_0_0_n_n 1024 rfl rfl).symm k) = ix2 q k := funext fun x => Fin.ext (by
    match x with
    | ⟨0, _⟩ => exact dot_rhs_0 _ _
    | ⟨1, _⟩ => exact (dot_rhs_1 _ _).trans hk)
  rw [el, er]

/-! ## The norms and the row and column numbers, broadcast over the tile -/

/-- An [a, 1] column broadcast to [a, b] reads, at (p, c), the column at p. -/
theorem broadcastCol_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The broadcast column of norms: at (p, q) the norm of row p. -/
theorem normCol_apply (v : Vec Ideal S1024x1 .f32) (hc : S1024x1.ShapeCasts S1024x1) (h : S1024x1.Broadcasts S1024x512)
    (p : Fin 1024) (q : Fin 512) :
    broadcastTo S1024x512 (shapeCast S1024x1 v hc) h (ix2 p q) = v (ix2 p 0) := by
  rw [shapeCast_self]
  exact broadcastCol_apply v h p q

/-- The broadcast row of norms: at (p, q) the norm of column q. -/
theorem normRow_apply (v : Vec Ideal S1x512 .f32) (hc : S1x512.ShapeCasts S1x512) (h : S1x512.Broadcasts S1024x512)
    (p : Fin 1024) (q : Fin 512) :
    broadcastTo S1024x512 (shapeCast S1x512 v hc) h (ix2 p q) = v (ix2 0 q) := by
  rw [shapeCast_self]
  exact broadcastTo_1b_ab_apply v h p q

/-- The broadcast row numbers: at (p, q) the word w + p. -/
theorem rowNumber_apply (w : BitVec 32) (h : S1024x1.Broadcasts S1024x512) (hi : S1024x1.Iotas .tc 32 [0])
    (p : Fin 1024) (q : Fin 512) :
    broadcastTo S1024x512 (addi (broadcast S1024x1 w) (iota .tc S1024x1 32 [0] hi)) h (ix2 p q)
      = IntOp.addi w (BitVec.ofNat 32 p.val) := by
  refine (broadcastCol_apply _ h p q).trans ?_
  show IntOp.addi w (iota .tc S1024x1 32 [0] hi (ix2 p 0)) = _
  rw [iota_single_apply]

/-- The broadcast column numbers: at (p, q) the word w + q. -/
theorem colNumber_apply (w : BitVec 32) (h : S1x512.Broadcasts S1024x512) (hi : S1x512.Iotas .tc 32 [1])
    (p : Fin 1024) (q : Fin 512) :
    broadcastTo S1024x512 (addi (broadcast S1x512 w) (iota .tc S1x512 32 [1] hi)) h (ix2 p q)
      = IntOp.addi w (BitVec.ofNat 32 q.val) := by
  refine (broadcastTo_1b_ab_apply _ h p q).trans ?_
  show IntOp.addi w (iota .tc S1x512 32 [1] hi (ix2 0 q)) = _
  rw [iota_single_apply]

/-! ## The diagonal -/

/-- A 32-bit equality test gives the bit one exactly on equal words. -/
theorem cmpi_eq_one_iff (x y : BitVec 32) : IntOp.cmpi .eq x y = 1#1 ↔ x = y := by
  show BitVec.ofBool (x == y) = 1#1 ↔ x = y
  by_cases h : x = y
  · subst h; simp
  · rw [show (x == y) = false from beq_eq_false_iff_ne.mpr h]
    exact ⟨fun h1 => absurd h1 (by decide), fun h1 => absurd h1 h⟩

/-- The 32-bit row and column numbers of a pair do not wrap: they are equal as words exactly when equal as naturals. -/
theorem diag_bit (a b p q : ℕ) (ha : a < 4) (hb : b < 8) (hp : p < 1024) (hq : q < 512) :
    IntOp.cmpi .eq (IntOp.addi (Scalar.muli (BitVec.ofNat 32 a) 1024#32) (BitVec.ofNat 32 p))
        (IntOp.addi (Scalar.muli (BitVec.ofNat 32 b) 512#32) (BitVec.ofNat 32 q)) = 1#1
      ↔ 1024 * a + p = 512 * b + q := by
  rw [cmpi_eq_one_iff, ← BitVec.toNat_inj]
  simp only [IntOp.addi, Scalar.muli, IntOp.muli, BitVec.toNat_add, BitVec.toNat_mul, BitVec.toNat_ofNat]
  omega

/-! ## The two sums -/

/-- A one-entry [1] array cast to [1, 1] reads its one entry. -/
theorem cast_1_11 {α : Type} (v : S1.Idx → α) (h : S1.ShapeCasts S1x1) (a b : Fin 1) :
    shapeCast S1x1 v h (ix2 a b) = v (ix1 b) := shapeCast_a_1a_apply v h a b

/-- A [1024] array cast to the column [1024, 1] reads, at (p, c), its entry p. -/
theorem cast_col {α : Type} (v : S1024.Idx → α) (h : S1024.ShapeCasts S1024x1) (p : Fin 1024) (c : Fin 1) :
    shapeCast S1024x1 v h (ix2 p c) = v (ix1 p) :=
  shapeCast_apply v h _ _ (by
    have hc : c.val = 0 := by omega
    rw [Shape.rowMajor_val_two, Shape.rowMajor_val_one]
    show p.val = p.val * 1 + c.val
    rw [hc, Nat.mul_one, Nat.add_zero])

/-- The sum along the rows of a [1024, 512] array: entry p is the sum over q of the entries (p, q). -/
theorem rowSum_apply (v : FVec Ideal S1024x512 .f32) (h : S1024x512.Reduces [1] S1024) (hφ : FKind.Formats .f32)
    (hacc : (0x00000000#32 : BitVec 32) = FKind.add.neutral .f32 hφ) (p : Fin 1024) :
    multiReduction (F := Ideal) .add [1] S1024 v 0x00000000#32 h hφ hacc (ix1 p) = ∑ q : Fin 512, v (ix2 p q) := by
  refine (Ideal.multiReduction_add_single v 0x00000000#32 h hφ hacc (ix1 p)).trans ?_
  show ∑ q : Fin 512, v (h.lift (ix1 p) q) = _
  refine Finset.sum_congr rfl fun q _ => congrArg v (funext fun x => Fin.ext ?_)
  match x with
  | ⟨0, _⟩ => rfl
  | ⟨1, _⟩ => rfl

/-- The sum down the one column of a [1024, 1] array: the sum over p of the entries (p, 0). -/
theorem colSum_apply (v : FVec Ideal S1024x1 .f32) (h : S1024x1.Reduces [0] S1) (hφ : FKind.Formats .f32)
    (hacc : (0x00000000#32 : BitVec 32) = FKind.add.neutral .f32 hφ) (b : Fin 1) :
    multiReduction (F := Ideal) .add [0] S1 v 0x00000000#32 h hφ hacc (ix1 b) = ∑ p : Fin 1024, v (ix2 p b) := by
  refine (Ideal.multiReduction_add_single v 0x00000000#32 h hφ hacc (ix1 b)).trans ?_
  show ∑ p : Fin 1024, v (h.lift (ix1 b) p) = _
  refine Finset.sum_congr rfl fun p _ => congrArg v (funext fun x => Fin.ext ?_)
  match x with
  | ⟨0, _⟩ => rfl
  | ⟨1, _⟩ => rfl

end Cert.KernelIdeal.Tile

end
-- ==== Proof.Tile.lean ====
/-
  One grid point of the kernel, read at the extended reals: from the point's four input blocks (1024 rows
  of x, 512 rows of y, the 1024 and 512 clamped norms) the body computes the sum, over the tile's
  1024 x 512 pairs, of the shared entry function; the pair (p, q) of tile (i, j) is on the diagonal when
  1024 i + p = 512 j + q.
-/
import proofs.«181856_j82892868813397_1_alg».proof.Proof.Spec
import proofs.«181856_j82892868813397_1_alg».proof.Proof.Gen.KernelIdeal.Skeleton
import proofs.«181856_j82892868813397_1_alg».proof.Proof.TileReads
import Idealize.ShloMosaic.Lib.Pipeline.Value
import Idealize.ShloMosaic.Lib.ValueLayout

noncomputable section

namespace Cert.KernelIdeal.Tile

open Cert.KernelIdeal Cert.KernelIdeal.Gen Idealize.ShloMosaic Idealize.ShloMosaic.ValueIdx

/-- The tile's sum, as the body's arithmetic leaves it in its one-entry result. -/
theorem pay4_apply (i : grid0.Coords) (x0 : Vec Ideal S1024x1024 .f32) (x1 : Vec Ideal S512x1024 .f32)
    (x2 : Vec Ideal S1024x1 .f32) (x3 : Vec Ideal S1x512 .f32) (j : S1x1.Idx) :
    k0_pay4 (F := Ideal) i x0 x1 x2 x3 j
      = ∑ p : Fin 1024, ∑ q : Fin 512,
          Cert.Spec.cell (∑ k : Fin 1024, x0 (ix2 p k) * x1 (ix2 q k)) (x2 (ix2 p 0)) (x3 (ix2 0 q))
            (1024 * (i 0).val + p.val = 512 * (i 1).val + q.val) := by
  obtain ⟨a, b, rfl⟩ : ∃ (a : Fin 1) (b : Fin 1), j = ix2 a b := ⟨j 0, j 1, eq_ix2 j⟩
  unfold k0_pay4
  -- the two sums: over the rows p of the column that the sums over q leave
  refine (cast_1_11 _ _ a b).trans ?_
  refine (colSum_apply _ _ _ _ b).trans ?_
  refine Finset.sum_congr rfl fun p _ => ?_
  refine (cast_col _ _ p b).trans ?_
  refine (rowSum_apply _ _ _ _ p).trans ?_
  refine Finset.sum_congr rfl fun q _ => ?_
  -- the entry (p, q): the block product over the product of the two norms, zero on the diagonal, hinged and squared
  have hm : matmul dot_S1024x1024_S512x1024_S1024x512_1_1_0_0_n_n none (truncf .bf16 x0 bitsLt_bf16_f32)
      (truncf .bf16 x1 bitsLt_bf16_f32) (constant (F := Ideal) S1024x512 .f32 0x00000000#32) (ix2 p q)
        = ∑ k : Fin 1024, x0 (ix2 p k) * x1 (ix2 q k) := blockProduct_apply _ _ p q
  simp only [mulf_apply, maximumf_apply, subf_apply, select_apply, broadcast_apply, divf_apply, cmpi]
  rw [hm, normCol_apply, normRow_apply, rowNumber_apply, colNumber_apply]
  unfold Cert.Spec.cell Cert.Spec.hinge
  by_cases hd : 1024 * (i 0).val + p.val = 512 * (i 1).val + q.val
  · rw [(diag_bit _ _ _ _ (i 0).isLt (i 1).isLt p.isLt q.isLt).mpr hd, select_one, if_pos hd]
    rfl
  · rw [eq_zero_of_ne_one (fun h1 => hd ((diag_bit _ _ _ _ (i 0).isLt (i 1).isLt p.isLt q.isLt).mp h1)), select_zero, if_neg hd]
    rfl

end Cert.KernelIdeal.Tile

end
-- ==== Proof.SpecLaws.lean ====
/-
  Two laws of the shared arithmetic: clearing the diagonal by a product with (1 - [r = c]) is the select
  that puts zero there (true of every extended real, the infinities included: anything times zero is zero),
  and a sum over the 4096 x 4096 pairs is the sum over the 4 x 8 tiles of the sums over each tile's
  1024 x 512 pairs.
-/
import proofs.«181856_j82892868813397_1_alg».proof.Proof.Spec
import Idealize.ShloMosaic.Lib.IdealHost
import Mathlib.Logic.Equiv.Fin.Basic
import Mathlib.Data.Fintype.BigOperators
import Mathlib.Data.EReal.Operations

noncomputable section

namespace Cert.Spec

open Idealize.ShloMosaic

/-- A similarity times (one minus the diagonal bit read as a number) is zero on the diagonal and itself off it. -/
theorem mask_mul (s : EReal) (b : BitVec 1) :
    s * (oneW - ((b.toNat : ℝ) : EReal)) = if b = 1#1 then zeroW else s := by
  have e1 : oneW = 1 := Ideal.ofBits_one_f32
  have e0 : zeroW = 0 := Ideal.ofBits_zero_f32
  rcases BitVec.eq_zero_or_eq_one b with rfl | rfl
  · -- off the diagonal the bit is 0: 1 - 0 = 1 and s * 1 = s
    have h : ¬ ((0#1 : BitVec 1) = 1#1) := by decide
    rw [if_neg h, e1]
    have h0 : (((0#1 : BitVec 1).toNat : ℝ) : EReal) = 0 := by simp
    rw [h0, sub_zero, mul_one]
  · -- on the diagonal the bit is 1: 1 - 1 = 0 and s * 0 = 0
    rw [if_pos rfl, e1, e0]
    have h1 : (((1#1 : BitVec 1).toNat : ℝ) : EReal) = ((1 : ℝ) : EReal) := by simp
    rw [h1, ← EReal.coe_one, ← EReal.coe_sub, sub_self, EReal.coe_zero, mul_zero]

/-- Row p of row-tile i is the image of (i, p) under the standard bijection Fin 4 x Fin 1024 = Fin 4096. -/
private theorem rowOf_eq (i : Fin 4) (p : Fin 1024) :
    rowOf i p = (finProdFinEquiv : Fin 4 × Fin 1024 ≃ Fin (4 * 1024)) (i, p) := by
  apply Fin.ext
  simp only [rowOf, finProdFinEquiv_apply_val]
  omega

/-- Column q of column-tile j is the image of (j, q) under the standard bijection Fin 8 x Fin 512 = Fin 4096. -/
private theorem colOf_eq (j : Fin 8) (q : Fin 512) :
    colOf j q = (finProdFinEquiv : Fin 8 × Fin 512 ≃ Fin (8 * 512)) (j, q) := by
  apply Fin.ext
  simp only [colOf, finProdFinEquiv_apply_val]
  omega

/-- A sum over the rows is the sum over the row tiles of the sums over each tile's rows. -/
private theorem sum_rows {M : Type} [AddCommMonoid M] (g : Fin 4096 → M) :
    ∑ i : Fin 4, ∑ p : Fin 1024, g (rowOf i p) = ∑ r : Fin 4096, g r := by
  calc ∑ i : Fin 4, ∑ p : Fin 1024, g (rowOf i p)
      = ∑ x : Fin 4 × Fin 1024, g ((finProdFinEquiv : Fin 4 × Fin 1024 ≃ Fin (4 * 1024)) x) := by
        rw [Fintype.sum_prod_type]; simp only [rowOf_eq]
    _ = ∑ r : Fin 4096, g r :=
        Equiv.sum_comp (finProdFinEquiv : Fin 4 × Fin 1024 ≃ Fin (4 * 1024)) g

/-- A sum over the columns is the sum over the column tiles of the sums over each tile's columns. -/
private theorem sum_cols {M : Type} [AddCommMonoid M] (g : Fin 4096 → M) :
    ∑ j : Fin 8, ∑ q : Fin 512, g (colOf j q) = ∑ c : Fin 4096, g c := by
  calc ∑ j : Fin 8, ∑ q : Fin 512, g (colOf j q)
      = ∑ x : Fin 8 × Fin 512, g ((finProdFinEquiv : Fin 8 × Fin 512 ≃ Fin (8 * 512)) x) := by
        rw [Fintype.sum_prod_type]; simp only [colOf_eq]
    _ = ∑ c : Fin 4096, g c :=
        Equiv.sum_comp (finProdFinEquiv : Fin 8 × Fin 512 ≃ Fin (8 * 512)) g

/-- Summing over all pairs is summing tile by tile. -/
theorem sum_tiles {M : Type} [AddCommMonoid M] (f : Fin 4096 → Fin 4096 → M) :
    ∑ i : Fin 4, ∑ j : Fin 8, ∑ p : Fin 1024, ∑ q : Fin 512, f (rowOf i p) (colOf j q)
      = ∑ r : Fin 4096, ∑ c : Fin 4096, f r c := by
  calc ∑ i : Fin 4, ∑ j : Fin 8, ∑ p : Fin 1024, ∑ q : Fin 512, f (rowOf i p) (colOf j q)
      = ∑ i : Fin 4, ∑ p : Fin 1024, ∑ j : Fin 8, ∑ q : Fin 512, f (rowOf i p) (colOf j q) :=
        Finset.sum_congr rfl fun i _ => Finset.sum_comm
    _ = ∑ i : Fin 4, ∑ p : Fin 1024, ∑ c : Fin 4096, f (rowOf i p) c :=
        Finset.sum_congr rfl fun i _ => Finset.sum_congr rfl fun p _ => sum_cols (f (rowOf i p))
    _ = ∑ r : Fin 4096, ∑ c : Fin 4096, f r c := sum_rows fun r => ∑ c : Fin 4096, f r c

end Cert.Spec

end
-- ==== Proof.RefEntry.lean ====
/-
  The reference, read entry by entry: its hinge-squared similarity matrix at (r, c) is the shared entry
  function of the two rows' inner product, their clamped norms and the diagonal test, and its last sum
  runs over all 4096 x 4096 pairs.
-/
import proofs.«181856_j82892868813397_1_alg».proof.Proof.Spec
import proofs.«181856_j82892868813397_1_alg».proof.Proof.SpecLaws
import proofs.«181856_j82892868813397_1_alg».proof.Proof.Gen.ReferenceIdeal.Read

noncomputable section

namespace Cert.ReferenceIdeal.RefValue

open Cert.ReferenceIdeal Cert.ReferenceIdeal.Read Idealize.ShloMosaic Idealize.ShloMosaic.ValueIdx

/-- The left operand of the contraction at (r, c), k is x at (r, k). -/
private theorem lidx_eq (r c : Fin 4096) (k : Fin 1024) : lidx_main_v11 (ix2 r c) k = ix2 r k :=
  funext fun a => Fin.ext (by match a with | ⟨0, _⟩ => rfl | ⟨1, _⟩ => rfl)

/-- The right operand is the transpose of y, so at (r, c), k it is y at (c, k). -/
private theorem ridx_eq (r c : Fin 4096) (k : Fin 1024) :
    idx_main_v10 (ridx_main_v11 (ix2 r c) k) = ix2 c k :=
  funext fun a => Fin.ext (by match a with | ⟨0, _⟩ => rfl | ⟨1, _⟩ => rfl)

/-- The column of row norms, broadcast along the rows, reads the norm of row r. -/
private theorem nI_idx_eq (r c : Fin 4096) : idx_main_v12 (idx_main_v14 (ix2 r c)) = ix1 r :=
  funext fun a => Fin.ext (by match a with | ⟨0, _⟩ => rfl)

/-- The row of column norms, broadcast along the columns, reads the norm of row c of y. -/
private theorem nT_idx_eq (r c : Fin 4096) : idx_main_v13 (idx_main_v15 (ix2 r c)) = ix1 c :=
  funext fun a => Fin.ext (by match a with | ⟨0, _⟩ => rfl)

/-- The diagonal bit: the two 32-bit counters agree exactly when the coordinates do (both are below 2^32). -/
private theorem diag_bit (r c : Fin 4096) :
    IntOp.cmpi .eq (IntOp.addi (BitVec.ofNat 32 r.val) 0#32) (BitVec.ofNat 32 c.val) = 1#1 ↔ r.val = c.val := by
  have hr := r.isLt
  have hc := c.isLt
  constructor
  · intro h
    have h2 : BitVec.ofNat 32 r.val = BitVec.ofNat 32 c.val := by
      by_contra hne
      have hb : (BitVec.ofNat 32 r.val == BitVec.ofNat 32 c.val) = false := beq_eq_false_iff_ne.mpr hne
      simp only [IntOp.cmpi, IntOp.addi, BitVec.add_zero, hb] at h
      exact absurd h (by decide)
    have h3 := congrArg BitVec.toNat h2
    simp only [BitVec.toNat_ofNat] at h3
    omega
  · intro h
    rw [h]
    simp [IntOp.cmpi, IntOp.addi]

/-- The reference's matrix of squared hinges at (r, c). -/
theorem v36_apply (x y : (⟨S4096x1024, .f32⟩ : BufTy).Contents (Elt Ideal)) (r c : Fin 4096) :
    val_main_v36 (F := Ideal) x y (ix2 r c)
      = Cert.Spec.cell (Cert.Spec.dotRow x y r c) (val_main_v2 (F := Ideal) x (ix1 r)) (val_main_v5 (F := Ideal) y (ix1 c))
          (r.val = c.val) := by
  simp only [val_main_v36_apply, val_main_v35_apply, val_main_v33_apply, val_main_v34_apply, val_main_cst_7_apply,
    val_main_v32_apply, val_main_cst_6_apply, val_main_v26_apply, val_main_v25_apply, val_main_v24_apply,
    val_main_cst_2_apply, val_main_v23_apply, val_main_v22_apply, val_main_v21_apply, val_main_v18_apply,
    val_main_v19_apply, val_main_v20_apply, val_main_c_apply, val_main_v17_apply, val_main_v16_apply,
    val_main_v14_apply, val_main_v12_apply, val_main_v15_apply, val_main_v13_apply, val_main_v11_apply,
    val_main_v10_apply,
    Ideal.mulf_def, Ideal.subf_def, Ideal.maximumf_def, Ideal.hostDivf_def, Ideal.ofBits_def,
    lidx_eq, ridx_eq, nI_idx_eq, nT_idx_eq]
  have hu : ∀ b : BitVec 1, FloatOps.uitofp (F := Ideal) FTy.f32 b = ((b.toNat : ℝ) : EReal) := fun _ => rfl
  rw [hu]
  have hm := Cert.Spec.mask_mul
    (Ideal.div (∑ k : Fin 1024, x (ix2 r k) * y (ix2 c k)) (val_main_v2 (F := Ideal) x (ix1 r) * val_main_v5 (F := Ideal) y (ix1 c)))
    (IntOp.cmpi .eq (IntOp.addi (BitVec.ofNat 32 r.val) 0#32) (BitVec.ofNat 32 c.val))
  unfold Cert.Spec.cell Cert.Spec.hinge Cert.Spec.dotRow
  by_cases h : r.val = c.val
  · rw [if_pos ((diag_bit r c).mpr h)] at hm
    rw [if_pos h]
    exact congrArg (fun s => max (s - Cert.Spec.halfW) Cert.Spec.zeroW * max (s - Cert.Spec.halfW) Cert.Spec.zeroW) hm
  · rw [if_neg (fun hb => h ((diag_bit r c).mp hb))] at hm
    rw [if_neg h]
    exact congrArg (fun s => max (s - Cert.Spec.halfW) Cert.Spec.zeroW * max (s - Cert.Spec.halfW) Cert.Spec.zeroW) hm

/-- The reference's total: zero plus the sum of that matrix over all pairs. -/
theorem v37_apply (x y : (⟨S4096x1024, .f32⟩ : BufTy).Contents (Elt Ideal)) (i : S_.Idx) :
    val_main_v37 (F := Ideal) x y i
      = Cert.Spec.zeroW + ∑ r : Fin 4096, ∑ c : Fin 4096, val_main_v36 (F := Ideal) x y (ix2 r c) := by
  rw [val_main_v37_apply, val_main_cst_8_apply, Ideal.ofBits_def, sum_idx2]

end Cert.ReferenceIdeal.RefValue

end
-- ==== Proof.Final.lean ====
/-
  The two sides meet. A tile's sum, as the kernel's body computes it from its blocks, is the sum over the
  tile of the reference's matrix of squared hinges: the block of x holds rows 1024 i + p, the block of y
  rows 512 j + q, the norm blocks the matching clamped norms, and the kernel's diagonal test
  1024 i + p = 512 j + q is the reference's r = c. The output array's four entries are the four rows of
  tiles, each zero plus its eight tile sums, so the array sums to the sum over all 4096 x 4096 pairs. The
  host lines after the region then divide by the number of pairs and add the mean over the matching
  pairs, as the reference's last lines do.
-/
import proofs.«181856_j82892868813397_1_alg».proof.Proof.Blocks
import proofs.«181856_j82892868813397_1_alg».proof.Proof.Tile
import proofs.«181856_j82892868813397_1_alg».proof.Proof.RefEntry
import proofs.«181856_j82892868813397_1_alg».proof.Proof.SpecLaws

noncomputable section

open Idealize.ShloMosaic Idealize.ShloMosaic.TcCoe Idealize.SL.Sem
open Idealize.ShloMosaic.Pipeline (Dat)

namespace Cert.Spec

/-- The entry function does not care how the diagonal test is phrased. -/
theorem cell_congr {d a b : EReal} {P Q : Prop} [Decidable P] [Decidable Q] (h : P ↔ Q) : cell d a b P = cell d a b Q := by
  unfold cell
  by_cases hp : P
  · rw [if_pos hp, if_pos (h.mp hp)]
  · rw [if_neg hp, if_neg (fun hq => hp (h.mpr hq))]

end Cert.Spec

namespace Cert.KernelIdeal.NegLoss

open Cert.KernelIdeal Cert.KernelIdeal.Gen Idealize.ShloMosaic.ValueIdx Cert.Spec
open Cert.ReferenceIdeal.Read (val_main_v36 val_main_v37 val_main_v38 val_main_v39 val_main_v2 val_main_v5 val_main_v31)

variable (m : (ℓ : Loc nD τ sig) → Buf (Elt Ideal) ℓ)

/-- The tile sum of grid point 8 i + j is the sum of the reference's entries over tile (i, j). -/
theorem tileAt_eq (c : Dev nD) (i : Fin 4) (j : Fin 8) (h : 8 * i.val + j.val < cfg0.N) (a : S1x1.Idx) :
    tileAt m c ⟨8 * i.val + j.val, h⟩ a
      = ∑ p : Fin 1024, ∑ q : Fin 512, val_main_v36 (F := Ideal) (X m c) (Y m c) (ix2 (rowOf i p) (colOf j q)) := by
  have hd8 : (8 * i.val + j.val) / 8 = i.val := by omega
  have hm8 : (8 * i.val + j.val) % 8 = j.val := by omega
  unfold tileAt
  rw [Cert.KernelIdeal.Tile.pay4_apply]
  refine Finset.sum_congr rfl fun p _ => Finset.sum_congr rfl fun q _ => ?_
  rw [Cert.ReferenceIdeal.RefValue.v36_apply]
  have hr : (rowOf i p).val = 1024 * ((⟨8 * i.val + j.val, h⟩ : Fin cfg0.N).val / 8) + p.val := by
    show 1024 * i.val + p.val = 1024 * ((8 * i.val + j.val) / 8) + p.val; rw [hd8]
  have hc : (colOf j q).val = 512 * ((⟨8 * i.val + j.val, h⟩ : Fin cfg0.N).val % 8) + q.val := by
    show 512 * j.val + q.val = 512 * ((8 * i.val + j.val) % 8) + q.val; rw [hm8]
  have hd : (∑ k : Fin 1024, xblk m c ⟨8 * i.val + j.val, h⟩ (ix2 p k) * yblk m c ⟨8 * i.val + j.val, h⟩ (ix2 q k))
      = dotRow (X m c) (Y m c) (rowOf i p) (colOf j q) := by
    unfold dotRow
    refine Finset.sum_congr rfl fun k _ => ?_
    rw [xblk_apply m c _ p k (rowOf i p) hr, yblk_apply m c _ q k (colOf j q) hc]
  rw [hd, nIblk_apply m c _ p (rowOf i p) hr, nTblk_apply m c _ q (colOf j q) hc]
  refine cell_congr ?_
  rw [(coords_t ⟨8 * i.val + j.val, h⟩).1, (coords_t ⟨8 * i.val + j.val, h⟩).2]
  show 1024 * ((8 * i.val + j.val) / 8) + p.val = 512 * ((8 * i.val + j.val) % 8) + q.val ↔ 1024 * i.val + p.val = 512 * j.val + q.val
  rw [hd8, hm8]

/-- The output array's indices are its four rows of tiles. -/
def rowTile : S4x1x1.Idx ≃ Fin 4 where
  toFun b := b 0
  invFun i := ix3 i 0 0
  left_inv b := funext fun a => Fin.ext (by
    match a with
    | ⟨0, _⟩ => rfl
    | ⟨1, _⟩ => have : (b 1).val < 1 := (b 1).isLt; show (0 : ℕ) = (b 1).val; omega
    | ⟨2, _⟩ => have : (b 2).val < 1 := (b 2).isLt; show (0 : ℕ) = (b 2).val; omega)
  right_inv i := rfl

/-- The output array, as a function into the extended reals. -/
abbrev outVal (c : Dev nD) : S4x1x1.Idx → EReal := outArr m c

/-- The output array sums to the sum of the reference's matrix of squared hinges over all pairs. -/
theorem out_sum (c : Dev nD) :
    ∑ b : S4x1x1.Idx, outVal m c b
      = ∑ r : Fin 4096, ∑ cc : Fin 4096, val_main_v36 (F := Ideal) (X m c) (Y m c) (ix2 r cc) := by
  have hN : cfg0.N = 32 := N_0
  rw [← sum_tiles (fun r cc => val_main_v36 (F := Ideal) (X m c) (Y m c) (ix2 r cc))]
  refine (Fintype.sum_equiv rowTile _ (fun i : Fin 4 => outVal m c (ix3 i 0 0)) (fun b => ?_)).trans ?_
  · exact congrArg (outVal m c) (rowTile.left_inv b).symm
  refine Finset.sum_congr rfl fun i _ => ?_
  show Cert.Spec.zeroW + ∑ s ∈ Finset.range 8, tileN m c (8 * i.val + s) (ix2 0 0) = _
  rw [show zeroW = 0 from Ideal.ofBits_zero_f32, zero_add, Finset.sum_range]
  refine Finset.sum_congr rfl fun j _ => ?_
  have hi : i.val < 4 := i.isLt
  have hj : j.val < 8 := j.isLt
  have h : 8 * i.val + j.val < cfg0.N := by omega
  show tileN m c (8 * i.val + j.val) (ix2 0 0) = _
  unfold tileN
  rw [dif_pos h]
  exact tileAt_eq m c i j h _

/-- The kernel's result: the host lines after the region add the mean over the matching pairs to the output
    array's sum divided by the number of pairs; it is the reference's result term. -/
theorem tail_eq (c : Dev nD) :
    Pipeline.afterTail₀ cfgs (dats m) 0 (V0 m) [hostOps1] c main_v20 = val_main_v39 (F := Ideal) (X m c) (Y m c) := by
  unfold Pipeline.afterTail₀
  show StableHlo.after hostOps1 _ (Proc.devRef .tc main_v20) = _
  after_results
  have e14 : Pipeline.withArrays (cfgs 0).spec c (V0 m c) (fun w => (dats m 0 c).arrAt w (cfgs 0).N) (Proc.devRef .tc main_v14)
      = val_main_v31 (F := Ideal) (X m c) (Y m c) :=
    (Pipeline.withArrays_of_ne spec0 c _ _ main_v14 (by intro w; fin_cases w <;> decide)).trans (v14_eq m c)
  have e17 : Pipeline.withArrays (cfgs 0).spec c (V0 m c) (fun w => (dats m 0 c).arrAt w (cfgs 0).N) (Proc.devRef .tc main_v17)
      = outArr m c :=
    (Pipeline.withArrays_arr spec0 launch0.win.arr_inj c _ _ 4).trans (final_out m c)
  rw [e14, e17]
  unfold val_main_v39 val_main_v38
  refine congrArg (addf _) (congrArg (Host.divf · _) ?_)
  funext i
  rw [Cert.ReferenceIdeal.RefValue.v37_apply, ← out_sum]
  simp only [Host.reduceAdd, Ideal.hostReduceAdd_def]
  exact Ideal.hostReduceAdd_total reducesTo_S4x1x1_S_d0_1_2 (fun b => b.elim0) (outArr m c) _ i

end Cert.KernelIdeal.NegLoss
end
-- ==== Proof.lean ====
/-
  The hinge loss over all non-matching pairs of two batches of 4096 embeddings, plus the mean squared
  (1 - cosine) over the matching pairs. The kernel computes the first term tile by tile (4 rows of 8 tiles
  of 1024 x 512 pairs), keeping a running sum per row of tiles and writing one number per row; the host
  lines around it compute the norms before and finish the two means after. The reference computes the
  whole 4096 x 4096 similarity matrix at once and clears its diagonal by a product with one minus the
  identity. Over the extended reals both are the same sums of the same entries: a sum may be regrouped
  freely, and a product with zero is zero whatever the other factor, so no finiteness is used.

  The three frames are the generated ones (the reference's is its generated run with the result dropped);
  the ideal pass rewrote nothing; the value claim reads the kernel's result off the generated frame run
  (Final.lean) against the reference's generated run.
-/
import proofs.«181856_j82892868813397_1_alg».proof.Defs
import proofs.«181856_j82892868813397_1_alg».proof.Proof.Gen.Kernel
import proofs.«181856_j82892868813397_1_alg».proof.Proof.Gen.Kernel.Skeleton
import proofs.«181856_j82892868813397_1_alg».proof.Proof.Gen.Kernel.Launch
import proofs.«181856_j82892868813397_1_alg».proof.Proof.Gen.Kernel.Points
import proofs.«181856_j82892868813397_1_alg».proof.Proof.Gen.Kernel.Frame
import proofs.«181856_j82892868813397_1_alg».proof.Proof.Gen.KernelIdeal
import proofs.«181856_j82892868813397_1_alg».proof.Proof.Gen.KernelIdeal.Skeleton
import proofs.«181856_j82892868813397_1_alg».proof.Proof.Gen.KernelIdeal.Launch
import proofs.«181856_j82892868813397_1_alg».proof.Proof.Gen.KernelIdeal.Points
import proofs.«181856_j82892868813397_1_alg».proof.Proof.Gen.KernelIdeal.Frame
import proofs.«181856_j82892868813397_1_alg».proof.Proof.Gen.ReferenceIdeal
import proofs.«181856_j82892868813397_1_alg».proof.Proof.Gen.Pre_finite_inputs
import proofs.«181856_j82892868813397_1_alg».proof.Proof.Gen.ReferenceIdeal.Run
import proofs.«181856_j82892868813397_1_alg».proof.Proof.Gen.ReferenceIdeal.Read
import proofs.«181856_j82892868813397_1_alg».proof.Proof.Final
import Idealize.ShloMosaic.Adequacy
import Idealize.ShloMosaic.Init

noncomputable section

namespace Cert.Proof

open Idealize.ShloMosaic Idealize.ShloMosaic.TcCoe Idealize.SL.Sem

/-- The idealized kernel's run, read: its result at the reference's result term of the same arguments, the
    arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v20)
            = Cert.ReferenceIdeal.Read.val_main_v39 (F := Ideal) (Cert.KernelIdeal.NegLoss.X m c) (Cert.KernelIdeal.NegLoss.Y m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run Cert.KernelIdeal.defs _ _).mono (fun _ h c =>
    ⟨((h c).2 Cert.KernelIdeal.main_v20 (Pipeline.mem_restRefs_of Cert.KernelIdeal.main_v20 rfl (by intro w; fin_cases w <;> decide))).trans
        (Cert.KernelIdeal.NegLoss.tail_eq m c),
      ((h c).1 0).trans (((Cert.KernelIdeal.Gen.dats m 0 c).arrAt_in 0 rfl _).trans
        ((Cert.KernelIdeal.Gen.A_eq m c 0).trans (Cert.KernelIdeal.Gen.V_main_arg0 m c))),
      ((h c).1 1).trans (((Cert.KernelIdeal.Gen.dats m 0 c).arrAt_in 1 rfl _).trans
        ((Cert.KernelIdeal.Gen.A_eq m c 1).trans (Cert.KernelIdeal.Gen.V_main_arg1 m c)))⟩)
    (Cert.KernelIdeal.Gen.run_main (F := Ideal) m ρ)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at the reference's result term of arguments that agree. -/
theorem algebraic : Cert.algebraic_KernelIdeal_ReferenceIdeal := by
  intro m ρ m' ρ' _ hagree
  refine ⟨fun c => Cert.ReferenceIdeal.Read.val_main_v39 (F := Ideal) (Cert.KernelIdeal.NegLoss.X m c) (Cert.KernelIdeal.NegLoss.Y m c),
    kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
